-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S512x64x512 : S_.BroadcastsInDim S512x64x512 (![] : Fin 0 → Fin S512x64x512.rank)
  reducesTo_S512x64x512_S_d0_1_2 : S512x64x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S512x64x512 .f32) (main_arg1 : FVec F S64x1024 .f32) (main_arg2 : FVec F S512x1024 .f32) (main_arg3 : FVec F S1024x1024 .f32) (main_arg4 : FVec F S1024 .f32) : IVec S_ 1 :=
  let main_v0 : FVec F S512x64x512 .f32 := Host.absf main_arg0
  let main_cst : FVec F S_ .f32 := constant S_ .f32 0x7F800000#32
  let main_v1 : FVec F S512x64x512 .f32 := broadcastInDim S512x64x512 ![] bcast_S_S512x64x512 main_cst
  let main_v2 : IVec S512x64x512 1 := cmpf .olt main_v0 main_v1
  let main_c : IVec S_ 1 := constantI S_ 1 1#1
  let main_v3 : IVec S_ 1 := (fun x v => Host.reduce IntOp.andi x v reducesTo_S512x64x512_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S512x64x1024 : Shape := ⟨3, ![512, 64, 1024]⟩
abbrev S16x64x512 : Shape := ⟨3, ![16, 64, 512]⟩
abbrev S16x64x1024 : Shape := ⟨3, ![16, 64, 1024]⟩
abbrev S1024x512 : Shape := ⟨2, ![1024, 512]⟩
abbrev S1x1024 : Shape := ⟨2, ![1, 1024]⟩
abbrev S1x64x1024 : Shape := ⟨3, ![1, 64, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x64x512, .f32⟩
  | .hbm, ⟨1, _⟩ => ⟨S64x1024, .f32⟩
  | .hbm, ⟨2, _⟩ => ⟨S512x1024, .f32⟩
  | .hbm, ⟨3, _⟩ => ⟨S1024x1024, .f32⟩
  | .hbm, ⟨4, _⟩ => ⟨S1024, .f32⟩
  | .hbm, ⟨5, _⟩ => ⟨S512x64x1024, .f32⟩
  | .local _ .vmem, ⟨0, _⟩ => ⟨S16x64x512, .f32⟩
  | .local _ .vmem, ⟨1, _⟩ => ⟨S16x64x512, .f32⟩
  | .local _ .vmem, ⟨2, _⟩ => ⟨S64x1024, .f32⟩
  | .local _ .vmem, ⟨3, _⟩ => ⟨S512x1024, .f32⟩
  | .local _ .vmem, ⟨4, _⟩ => ⟨S1024x1024, .f32⟩
  | .local _ .vmem, ⟨5, _⟩ => ⟨S1024, .f32⟩
  | .local _ .vmem, ⟨6, _⟩ => ⟨S16x64x1024, .f32⟩
  | .local _ .vmem, ⟨7, _⟩ => ⟨S16x64x1024, .f32⟩
  | _, _ => ⟨S512x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S16x64x512_S16x64x512_0_0_0 : ∀ a, (![0, 0, 0] : Fin 3 → Nat) a + S16x64x512.size a ≤ S16x64x512.size a
  h_S16x64x512 : 0 < S16x64x512.numel
  shapeCasts_S16x64x512_S1024x512 : S16x64x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S64x1024_S64x1024_0_0 : ∀ a, (![0, 0] : Fin 2 → Nat) a + S64x1024.size a ≤ S64x1024.size a
  h_S64x1024 : 0 < S64x1024.numel
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  shapeCasts_S1024x1024_S16x64x1024 : S1024x1024.ShapeCasts S16x64x1024
  shapeCasts_S64x1024_S1x64x1024 : S64x1024.ShapeCasts S1x64x1024
  broadcasts_S1x64x1024_S16x64x1024 : S1x64x1024.Broadcasts S16x64x1024
  inb_S16x64x1024_S16x64x1024_0_0_0 : ∀ a, (![0, 0, 0] : Fin 3 → Nat) a + S16x64x1024.size a ≤ S16x64x1024.size a
  h_S16x64x1024 : 0 < S16x64x1024.numel
  dot_S1024x512_S512x1024_S1024x1024_1_0_0_1_n_n_wf : DotDims.WF S1024x512 S512x1024 S1024x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x512.size a ≤ S512x64x512.size a
  hwx0_0 : ∀ i : grid0.Coords, EltTy.bits .f32 = 32 ∨ (Rect.block (s := S512x64x512) S16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64x1024.size a ≤ S512x64x1024.size a
  hwx0_5 : ∀ i : grid0.Coords, EltTy.bits .f32 = 32 ∨ (Rect.block (s := S512x64x1024) S16x64x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg0) S16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x64x512 : Shape := ⟨3, ![512, 64, 512]⟩
abbrev S64x1024 : Shape := ⟨2, ![64, 1024]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S512x64x1024 : Shape := ⟨3, ![512, 64, 1024]⟩
abbrev S1x64x1024 : Shape := ⟨3, ![1, 64, 1024]⟩

abbrev nBuf : Space → Nat
  | .hbm => 14
  | .vmem => 0
  | .smem => 0
  | _ => 0

abbrev bufTy : (tb : Table) → Fin (tcTables nBuf tb) → BufTy
  | .hbm, ⟨0, _⟩ => ⟨S512x64x512, .f32⟩
  | .hbm, ⟨1, _⟩ => ⟨S64x1024, .f32⟩
  | .hbm, ⟨2, _⟩ => ⟨S512x1024, .f32⟩
  | .hbm, ⟨3, _⟩ => ⟨S1024x1024, .f32⟩
  | .hbm, ⟨4, _⟩ => ⟨S1024, .f32⟩
  | .hbm, ⟨5, _⟩ => ⟨S64x1024, .f32⟩
  | .hbm, ⟨6, _⟩ => ⟨S1x1024, .f32⟩
  | .hbm, ⟨7, _⟩ => ⟨S64x1024, .f32⟩
  | .hbm, ⟨8, _⟩ => ⟨S64x1024, .f32⟩
  | .hbm, ⟨9, _⟩ => ⟨S512x64x1024, .f32⟩
  | .hbm, ⟨10, _⟩ => ⟨S1x64x1024, .f32⟩
  | .hbm, ⟨11, _⟩ => ⟨S512x64x1024, .f32⟩
  | .hbm, ⟨12, _⟩ => ⟨S512x64x1024, .f32⟩
  | .hbm, ⟨13, _⟩ => ⟨S512x64x1024, .f32⟩
  | _, _ => ⟨S512x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S1x64x1024_1_2 : S64x1024.BroadcastsInDim S1x64x1024 (![1, 2] : Fin 2 → Fin S1x64x1024.rank)
  bcast_S1x64x1024_S512x64x1024_0_1_2 : S1x64x1024.BroadcastsInDim S512x64x1024 (![0, 1, 2] : Fin 3 → Fin S512x64x1024.rank)
  dot_S64x1024_S1024x1024_S64x1024_1_0_0_1_n_n_wf : DotDims.WF S64x1024 S1024x1024 S64x1024 [1] [0] [0] [1] [] []
  dot_S512x64x512_S512x1024_S512x64x1024_2_0_01_1_n_n_wf : DotDims.WF S512x64x512 S512x1024 S512x64x1024 [2] [0] [0, 1] [1] [] []

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf
def dot_S512x64x512_S512x1024_S512x64x1024_2_0_01_1_n_n : DotDims S512x64x512 S512x1024 S512x64x1024 where
  lhsContracting := [2]
  rhsContracting := [0]
  lhsNonContracting := [0, 1]
  rhsNonContracting := [1]
  lhsBatch := []
  rhsBatch := []
  wf := dot_S512x64x512_S512x1024_S512x64x1024_2_0_01_1_n_n_wf

class Facts : Prop extends Facts₀ where

variable [Facts]
-- ==== Proof.Cell.lean ====
/-
  The recurrent cell with a frozen state, as one function of its five arrays over the extended reals.

  For `X : [512, 64, 512]`, `state : [64, 1024]`, `W_x : [512, 1024]`, `W_h : [1024, 1024]`, `b_h : [1024]` the output at
  time `t`, batch row `b` and hidden unit `h` is

      tanh ( ∑ₖ X(t, b, k) · W_x(k, h)  +  ( ∑ₖ state(b, k) · W_h(k, h)  +  b_h(h) ) ).

  The state is never updated, so the second summand does not depend on `t`: every time step is independent of the others.
-/
import Idealize.ShloMosaic.PureOps.Ideal
import Idealize.ShloMosaic.Lib.ValueIdx

noncomputable section

namespace Cert.Rnn

open Idealize.ShloMosaic Idealize.ShloMosaic.ValueIdx

/-- The state's projection with the bias, at batch row `b` and hidden unit `h`: `∑ₖ state(b, k) · W_h(k, h) + b_h(h)`. -/
def stateProj (st : FVec Ideal ⟨2, ![64, 1024]⟩ .f32) (Wh : FVec Ideal ⟨2, ![1024, 1024]⟩ .f32) (bh : FVec Ideal ⟨1, ![1024]⟩ .f32)
    (b : Fin 64) (h : Fin 1024) : EReal :=
  (∑ k : Fin 1024, st (ix2 b k) * Wh (ix2 k h)) + bh (ix1 h)

/-- The input's projection at time `t`, batch row `b` and hidden unit `h`: `∑ₖ X(t, b, k) · W_x(k, h)`. -/
def inputProj (X : FVec Ideal ⟨3, ![512, 64, 512]⟩ .f32) (Wx : FVec Ideal ⟨2, ![512, 1024]⟩ .f32)
    (t : Fin 512) (b : Fin 64) (h : Fin 1024) : EReal :=
  ∑ k : Fin 512, X (ix3 t b k) * Wx (ix2 k h)

/-- Every time step's output: `tanh` of the input's projection plus the frozen state's. -/
def cell (X : FVec Ideal ⟨3, ![512, 64, 512]⟩ .f32) (st : FVec Ideal ⟨2, ![64, 1024]⟩ .f32) (Wx : FVec Ideal ⟨2, ![512, 1024]⟩ .f32)
    (Wh : FVec Ideal ⟨2, ![1024, 1024]⟩ .f32) (bh : FVec Ideal ⟨1, ![1024]⟩ .f32) : FVec Ideal ⟨3, ![512, 64, 1024]⟩ .f32 :=
  fun j => Ideal.tanh (inputProj X Wx (j 0) (j 1) (j 2) + stateProj st Wh bh (j 1) (j 2))

theorem cell_apply (X : FVec Ideal ⟨3, ![512, 64, 512]⟩ .f32) (st : FVec Ideal ⟨2, ![64, 1024]⟩ .f32) (Wx : FVec Ideal ⟨2, ![512, 1024]⟩ .f32)
    (Wh : FVec Ideal ⟨2, ![1024, 1024]⟩ .f32) (bh : FVec Ideal ⟨1, ![1024]⟩ .f32) (t : Fin 512) (b : Fin 64) (h : Fin 1024) :
    cell X st Wx Wh bh (ix3 t b h) = Ideal.tanh (inputProj X Wx t b h + stateProj st Wh bh b h) := rfl

end Cert.Rnn

end
-- ==== Proof.RefCell.lean ====
/-
  The reference program's result is the cell.

  Its last stage, read one operation at a time, is `tanh` of the sum of two terms: the contraction of `X` with `W_x` over the
  last axis of `X`, and the `[64, 1024]` array `state · W_h + b_h` laid along a new leading axis and repeated for every time
  step. At an index `(t, b, h)` the first is `∑ₖ X(t, b, k) · W_x(k, h)` and the second `∑ₖ state(b, k) · W_h(k, h) + b_h(h)`,
  whatever `t` is: the two broadcasts only drop the time coordinate, and the bias's two broadcasts only drop the batch row.
-/
import proofs.«149903_j3590592659654_1_alg».proof.Proof.Gen.ReferenceIdeal.Read
import proofs.«149903_j3590592659654_1_alg».proof.Proof.Cell

noncomputable section

namespace Cert.ReferenceIdeal.RefCell

open Cert.ReferenceIdeal Cert.ReferenceIdeal.Read Idealize.ShloMosaic Idealize.ShloMosaic.ValueIdx Cert.Rnn

/-- The left operand of the input's contraction at `(t, b, h)` and `k` is `X(t, b, k)`. -/
theorem lidx_input (i : S512x64x1024.Idx) (k : Fin 512) : lidx_main_v4 i k = ix3 (i 0) (i 1) k :=
  funext fun a => Fin.ext (by match a with | ⟨0, _⟩ => rfl | ⟨1, _⟩ => rfl | ⟨2, _⟩ => rfl)

/-- Its right operand is `W_x(k, h)`. -/
theorem ridx_input (i : S512x64x1024.Idx) (k : Fin 512) : ridx_main_v4 i k = ix2 k (i 2) :=
  funext fun a => Fin.ext (by match a with | ⟨0, _⟩ => rfl | ⟨1, _⟩ => rfl)

/-- Through the two broadcasts over time, the left operand of the state's contraction is `state(b, k)`. -/
theorem lidx_state (i : S512x64x1024.Idx) (k : Fin 1024) : lidx_main_v0 (idx_main_v5 (idx_main_v6 i)) k = ix2 (i 1) k :=
  funext fun a => Fin.ext (by match a with | ⟨0, _⟩ => rfl | ⟨1, _⟩ => rfl)

/-- and its right operand `W_h(k, h)`. -/
theorem ridx_state (i : S512x64x1024.Idx) (k : Fin 1024) : ridx_main_v0 (idx_main_v5 (idx_main_v6 i)) k = ix2 k (i 2) :=
  funext fun a => Fin.ext (by match a with | ⟨0, _⟩ => rfl | ⟨1, _⟩ => rfl)

/-- Through all four broadcasts the bias is read at `h`. -/
theorem idx_bias (i : S512x64x1024.Idx) : idx_main_v1 (idx_main_v2 (idx_main_v5 (idx_main_v6 i))) = ix1 (i 2) :=
  funext fun a => Fin.ext (by match a with | ⟨0, _⟩ => rfl)

/-- The reference's last stage is the cell of its five arguments. -/
theorem stage_eq_cell (x0 : FVec Ideal S512x64x512 .f32) (x1 : FVec Ideal S64x1024 .f32) (x2 : FVec Ideal S512x1024 .f32)
    (x3 : FVec Ideal S1024x1024 .f32) (x4 : FVec Ideal S1024 .f32) :
    val_main_v8 (F := Ideal) x0 x1 x2 x3 x4 = cell x0 x1 x2 x3 x4 := by
  funext i
  rw [val_main_v8_apply, val_main_v7_apply, val_main_v4_apply, val_main_v6_apply, val_main_v5_apply, val_main_v3_apply,
    val_main_v0_apply, val_main_v2_apply, val_main_v1_apply]
  simp only [lidx_input, ridx_input, lidx_state, ridx_state, idx_bias, Ideal.hostUnary_tanh_def, Ideal.addf_def]
  rfl

end Cert.ReferenceIdeal.RefCell

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibFlatRows.lean ====
/-
  Rank-3 arrays whose two leading axes are read as one axis of rows, and back, for any sizes.

    * the cast of an `[a, b, c]` array to `[m, c]` (`m = a · b`), at `(r, k)` with `r = p · b + q`: the array at `(p, q, k)`;
    * the cast of an `[m, c]` array to `[a, b, c]`, at `(p, q, k)`: the array at `(p · b + q, k)`;
    * the broadcast of one `[1, b, c]` slab along a new leading extent to `[a, b, c]`, at `(p, q, k)`: the slab at `(0, q, k)`.

  Both casts keep the row-major position: `(p · b + q) · c + k` on either side.
-/
import Idealize.ShloMosaic.Lib.ValueIdx
import Idealize.ShloMosaic.Lib.Pipeline.Value

noncomputable section

namespace Cert.Lib.FlatRows

open Idealize.ShloMosaic Idealize.ShloMosaic.ValueIdx

variable {α : Type}

/-- An `[a, b, c]` array cast to `[m, c]` reads, at row `r = p · b + q` and lane `k`, the array at `(p, q, k)`. -/
theorem flatten_apply {a b c m : ℕ} (x : (⟨3, ![a, b, c]⟩ : Shape).Idx → α)
    (h : (⟨3, ![a, b, c]⟩ : Shape).ShapeCasts ⟨2, ![m, c]⟩) (p : Fin a) (q : Fin b) (k : Fin c) (r : Fin m)
    (hr : r.val = p.val * b + q.val) : shapeCast ⟨2, ![m, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[m, c]` array cast to `[a, b, c]` reads, at `(p, q, k)`, the array at row `r = p · b + q` and lane `k`. -/
theorem unflatten_apply {a b c m : ℕ} (x : (⟨2, ![m, c]⟩ : Shape).Idx → α)
    (h : (⟨2, ![m, c]⟩ : Shape).ShapeCasts ⟨3, ![a, b, c]⟩) (p : Fin a) (q : Fin b) (k : Fin c) (r : Fin m)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

/-- A `[1, b, c]` slab broadcast to `[a, b, c]` reads, at `(p, q, k)`, the slab at `(0, q, k)`. -/
theorem slab_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

end Cert.Lib.FlatRows

end
-- ==== Proof.Body.lean ====
/-
  What the kernel's body computes, at an index of its `[16, 64, 1024]` block.

  The body flattens its `[16, 64, 512]` block of `X` to `1024` rows (row `p · 64 + q` is time `p`, batch row `q`), multiplies it
  by `W_x` into a zero accumulator, and folds the rows back to `[16, 64, 1024]`; it multiplies `state` by `W_h` into a zero
  accumulator, adds the bias repeated down the rows, and repeats the `[64, 1024]` result for each of the 16 time steps; then
  `tanh` of the sum. Over the extended reals the casts to the narrower float format are the identity, a product into the zero
  word is the plain sum over the contracted coordinate, and the casts and broadcasts only rename coordinates. So at `(p, q, h)`
  the body's value is `tanh ( ∑ₖ x(p, q, k) · w_x(k, h) + ( ∑ₖ s(q, k) · w_h(k, h) + b(h) ) )`.
-/
import proofs.«149903_j3590592659654_1_alg».proof.Proof.Gen.KernelIdeal.Skeleton
import proofs.«149903_j3590592659654_1_alg».proof.Proof.LibRowwise
import proofs.«149903_j3590592659654_1_alg».proof.Proof.LibFlatRows
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Lib.Rowwise Cert.Lib.FlatRows

/-- A vector's `tanh` is taken element by element. -/
theorem tanh_apply {s : Shape} {φ : FTy} (a : FVec Ideal s φ) (i : s.Idx) : tanh a i = Ideal.tanh (a i) := rfl

/-- The flattened block times `W_x`, into zero: at row `r` and hidden unit `h`, the sum over the 512 input features. -/
theorem inputDot_apply (a : FVec Ideal S1024x512 .bf16) (b : FVec Ideal S512x1024 .bf16) (r : Fin 1024) (h : Fin 1024) :
    matmul dot_S1024x512_S512x1024_S1024x1024_1_0_0_1_n_n none a b (constant S1024x1024 .f32 0x00000000#32) (ix2 r h)
      = ∑ k : Fin 512, a (ix2 r k) * b (ix2 k h) := by
  rw [eq_plain dot_S1024x512_S512x1024_S1024x1024_1_0_0_1_n_n rfl rfl rfl rfl rfl rfl]
  exact plain_matmul_zero_apply none a b r h

/-- `state` times `W_h`, into zero: at batch row `q` and hidden unit `h`, the sum over the 1024 state coordinates. -/
theorem stateDot_apply (a : FVec Ideal S64x1024 .bf16) (b : FVec Ideal S1024x1024 .bf16) (q : Fin 64) (h : Fin 1024) :
    matmul dot_S64x1024_S1024x1024_S64x1024_1_0_0_1_n_n none a b (constant S64x1024 .f32 0x00000000#32) (ix2 q h)
      = ∑ k : Fin 1024, a (ix2 q k) * b (ix2 k h) := by
  rw [eq_plain dot_S64x1024_S1024x1024_S64x1024_1_0_0_1_n_n rfl rfl rfl rfl rfl rfl]
  exact plain_matmul_zero_apply none a b q h

/-- The body's stored value at `(p, q, h)` of its block, from the five loaded blocks. -/
theorem body_apply (x : FVec Ideal S16x64x512 .f32) (wx : FVec Ideal S512x1024 .f32) (s : FVec Ideal S64x1024 .f32)
    (wh : FVec Ideal S1024x1024 .f32) (b : FVec Ideal S1024 .f32) (p : Fin 16) (q : Fin 64) (h : Fin 1024) :
    k0_pay1 (F := Ideal) x wx s wh b (ix3 p q h)
      = Ideal.tanh ((∑ k : Fin 512, x (ix3 p q k) * wx (ix2 k h)) + ((∑ k : Fin 1024, s (ix2 q k) * wh (ix2 k h)) + b (ix1 h))) := by
  have hr : p.val * 64 + q.val < 1024 := by have := p.isLt; have := q.isLt; omega
  unfold k0_pay1
  rw [tanh_apply, addf_apply]
  refine congrArg Ideal.tanh (congrArg₂ (· + ·) ?_ ?_)
  · rw [unflatten_apply _ _ p q h ⟨p.val * 64 + q.val, hr⟩ rfl, inputDot_apply]
    refine Finset.sum_congr rfl fun k _ => ?_
    rw [truncf_apply, truncf_apply, flatten_apply _ _ p q k ⟨p.val * 64 + q.val, hr⟩ rfl]
  · rw [slab_apply, shapeCast_ab_1ab_apply, addf_apply, stateDot_apply, broadcastTo_1b_ab_apply, shapeCast_a_1a_apply]
    simp only [truncf_apply]

end Cert.KernelIdeal.Body

end
-- ==== Proof.Whole.lean ====
/-
  The kernel's output array, whole: after the run it holds the cell of the five argument arrays.

  The grid has 32 points. At point `t` the kernel sees time steps `16·t … 16·t + 15` of `X` (all batch rows and features), the
  whole of `state`, `W_x`, `W_h` and `b_h`, and writes time steps `16·t … 16·t + 15` of the output. So entry `(p, q, k)` of the
  block of `X` is `X(16·t + p, q, k)`, the other four blocks are their arrays, and entry `(p, q, h)` of what the point writes
  back is, by the body's value at that entry, the cell at `(16·t + p, q, h)`: the point writes block `t` of the cell. Time
  step `T` lies in the block of point `T / 16`, so the 32 blocks cover the array, and the array ends as the cell.
-/
import proofs.«149903_j3590592659654_1_alg».proof.Proof.Gen.KernelIdeal.Value
import proofs.«149903_j3590592659654_1_alg».proof.Proof.Body
import proofs.«149903_j3590592659654_1_alg».proof.Proof.Cell

noncomputable section

namespace Cert.KernelIdeal.Whole

open Cert.KernelIdeal Cert.KernelIdeal.Gen Idealize.ShloMosaic Idealize.ShloMosaic.TcCoe Idealize.SL.Sem
open Idealize.ShloMosaic.ValueIdx Cert.Rnn
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The block indices at point `t`: `X`'s and the output's blocks are the `t`-th along time, every other block is the first
    (and only) one on each axis. Decided over the 32 points. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-! ## The five input blocks at a point, by their literal types -/

abbrev xBlk (c : Dev nD) (t : Fin cfg0.N) : FVec Ideal S16x64x512 .f32 := iblk m c 0 t
abbrev sBlk (c : Dev nD) (t : Fin cfg0.N) : FVec Ideal S64x1024 .f32 := iblk m c 1 t
abbrev wxBlk (c : Dev nD) (t : Fin cfg0.N) : FVec Ideal S512x1024 .f32 := iblk m c 2 t
abbrev whBlk (c : Dev nD) (t : Fin cfg0.N) : FVec Ideal S1024x1024 .f32 := iblk m c 3 t
abbrev bBlk (c : Dev nD) (t : Fin cfg0.N) : FVec Ideal S1024 .f32 := iblk m c 4 t

/-- Entry `(p, q, k)` of `X`'s block at point `t` is `X(16·t + p, q, k)`. -/
theorem xBlk_apply (c : Dev nD) (t : Fin cfg0.N) (p : Fin 16) (q : Fin 64) (k : Fin 512) (T : Fin 512) (hT : T.val = t.val * 16 + p.val) :
    xBlk m c t (ix3 p q k) = V m c main_arg0 (ix3 T q k) := by
  show V m c main_arg0 (((cfg0.win 0).blk t).view.emb (ix3 p q k)) = V m c main_arg0 (ix3 T q k)
  obtain ⟨e0, e1, e2, -⟩ := block_indices t
  refine congrArg _ (funext fun a => Fin.ext ?_)
  match a with
  | ⟨0, _⟩ => show win0_0.index t (0 : Fin 3) * 16 + 1 * p.val = T.val; omega
  | ⟨1, _⟩ => show win0_0.index t (1 : Fin 3) * 64 + 1 * q.val = q.val; omega
  | ⟨2, _⟩ => show win0_0.index t (2 : Fin 3) * 512 + 1 * k.val = k.val; omega

/-- `state`'s block is `state`. -/
theorem sBlk_apply (c : Dev nD) (t : Fin cfg0.N) (q : Fin 64) (k : Fin 1024) : sBlk m c t (ix2 q k) = V m c main_arg1 (ix2 q k) := by
  show V m c main_arg1 (((cfg0.win 1).blk t).view.emb (ix2 q k)) = V m c main_arg1 (ix2 q k)
  obtain ⟨-, -, -, e0, e1, -⟩ := block_indices t
  refine congrArg _ (funext fun a => Fin.ext ?_)
  match a with
  | ⟨0, _⟩ => show win0_1.index t (0 : Fin 2) * 64 + 1 * q.val = q.val; omega
  | ⟨1, _⟩ => show win0_1.index t (1 : Fin 2) * 1024 + 1 * k.val = k.val; omega

/-- `W_x`'s block is `W_x`. -/
theorem wxBlk_apply (c : Dev nD) (t : Fin cfg0.N) (k : Fin 512) (h : Fin 1024) : wxBlk m c t (ix2 k h) = V m c main_arg2 (ix2 k h) := by
  show V m c main_arg2 (((cfg0.win 2).blk t).view.emb (ix2 k h)) = V m c main_arg2 (ix2 k h)
  obtain ⟨-, -, -, -, -, e0, e1, -⟩ := block_indices t
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * h.val = h.val; omega

/-- `W_h`'s block is `W_h`. -/
theorem whBlk_apply (c : Dev nD) (t : Fin cfg0.N) (k : Fin 1024) (h : Fin 1024) : whBlk m c t (ix2 k h) = V m c main_arg3 (ix2 k h) := by
  show V m c main_arg3 (((cfg0.win 3).blk t).view.emb (ix2 k h)) = V m c main_arg3 (ix2 k h)
  obtain ⟨-, -, -, -, -, -, -, e0, e1, -⟩ := block_indices t
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * h.val = h.val; omega

/-- The bias's block is the bias. -/
theorem bBlk_apply (c : Dev nD) (t : Fin cfg0.N) (h : Fin 1024) : bBlk m c t (ix1 h) = V m c main_arg4 (ix1 h) := by
  show V m c main_arg4 (((cfg0.win 4).blk t).view.emb (ix1 h)) = V m c main_arg4 (ix1 h)
  obtain ⟨-, -, -, -, -, -, -, -, -, e0, -⟩ := block_indices t
  refine congrArg _ (funext fun a => Fin.ext ?_)
  match a with
  | ⟨0, _⟩ => show win0_4.index t (0 : Fin 1) * 1024 + 1 * h.val = h.val; omega

/-- Entry `(p, q, h)` of the output's block at point `t` is the array's index `(16·t + p, q, h)`. -/
theorem outBlk_emb (t : Fin cfg0.N) (p : Fin 16) (q : Fin 64) (h : Fin 1024) (T : Fin 512) (hT : T.val = t.val * 16 + p.val) :
    ((cfg0.win 5).blk t).view.emb (ix3 p q h) = ix3 T q h := by
  obtain ⟨-, -, -, -, -, -, -, -, -, -, e0, e1, e2⟩ := block_indices t
  refine funext fun a => Fin.ext ?_
  match a with
  | ⟨0, _⟩ => show win0_5.index t (0 : Fin 3) * 16 + 1 * p.val = T.val; omega
  | ⟨1, _⟩ => show win0_5.index t (1 : Fin 3) * 64 + 1 * q.val = q.val; omega
  | ⟨2, _⟩ => show win0_5.index t (2 : Fin 3) * 1024 + 1 * h.val = h.val; omega

/-! ## A point writes its block of the cell -/

/-- The body's value on the point's blocks, at an entry of the output block, is the cell at that entry's place in the array. -/
theorem body_eq_cell (c : Dev nD) (t : Fin cfg0.N) (j : S16x64x1024.Idx) :
    k0_pay1 (F := Ideal) (xBlk m c t) (wxBlk m c t) (sBlk m c t) (whBlk m c t) (bBlk m c t) j
      = cell (V m c main_arg0) (V m c main_arg1) (V m c main_arg2) (V m c main_arg3) (V m c main_arg4)
          (((cfg0.win 5).blk t).view.emb j) := by
  obtain ⟨p, q, h, rfl⟩ : ∃ (p : Fin 16) (q : Fin 64) (h : Fin 1024), j = ix3 p q h := ⟨j 0, j 1, j 2, eq_ix3 j⟩
  have ht : t.val < 32 := t.isLt
  have hT : t.val * 16 + p.val < 512 := by have := p.isLt; omega
  rw [outBlk_emb t p q h ⟨t.val * 16 + p.val, hT⟩ rfl, cell_apply]
  refine (Body.body_apply _ _ _ _ _ p q h).trans ?_
  unfold inputProj stateProj
  simp only [xBlk_apply m c t p q _ ⟨t.val * 16 + p.val, hT⟩ rfl, sBlk_apply, wxBlk_apply, whBlk_apply, bBlk_apply]

/-- What point `t` writes back is block `t` of the cell of the argument arrays as the region finds them. -/
theorem flushed_eq (c : Dev nD) (t : Fin cfg0.N) :
    (dats m 0 c).flushed 5 t = ((cfg0.win 5).blk t).view.read (Elt Ideal)
      (cell (V m c main_arg0) (V m c main_arg1) (V m c main_arg2) (V m c main_arg3) (V m c main_arg4)) := by
  rw [Value.flushed5]
  unfold out0_5
  rw [View.canon_unit_zero zero3]
  simp only [View.ld_unit_zero (S := S16x64x512) zero3, View.ld_unit_zero (S := S64x1024) zero2, View.ld_unit_zero (S := S512x1024) zero2,
    View.ld_unit_zero (S := S1024x1024) zero2, View.ld_unit_zero (S := S1024) zero1]
  funext j
  exact body_eq_cell m c t j

/-! ## The 32 blocks cover the array -/

/-- An index of the array is in point `t`'s block iff each coordinate is in the block's range on its axis. -/
theorem mem_blk (t : Fin cfg0.N) (i : S512x64x1024.Idx) :
    i ∈ ((cfg0.win 5).blk t).view.set ↔ ∀ a : Fin 3, win0_5.index t a * S16x64x1024.size a ≤ (i a).val ∧ (i a).val < win0_5.index t a * S16x64x1024.size a + S16x64x1024.size a := by
  show i ∈ ((View.whole main_v0).slice (win0_5.rect t)).set ↔ _
  rw [View.set_slice_whole, Rect.mem_set_unit]
  exact Iff.rfl

/-- Time step `T` is written by point `T / 16`. -/
theorem cover (i : S512x64x1024.Idx) : ∃ t : Fin cfg0.N, (cfg0.win 5).flush t = true ∧ i ∈ ((cfg0.win 5).blk t).view.set := by
  have hi0 : (i 0).val < 512 := (i 0).isLt
  have hi1 : (i 1).val < 64 := (i 1).isLt
  have hi2 : (i 2).val < 1024 := (i 2).isLt
  have ht : (i 0).val / 16 < 32 := by omega
  obtain ⟨-, -, -, -, -, -, -, -, -, -, e0, e1, e2⟩ := block_indices ⟨(i 0).val / 16, ht⟩
  refine ⟨⟨(i 0).val / 16, ht⟩, flush0_5 _, ?_⟩
  rw [mem_blk]
  intro a
  match a with
  | ⟨0, _⟩ =>
    show win0_5.index ⟨(i 0).val / 16, ht⟩ (0 : Fin 3) * 16 ≤ (i 0).val ∧ (i 0).val < win0_5.index ⟨(i 0).val / 16, ht⟩ (0 : Fin 3) * 16 + 16
    rw [e0]; show (i 0).val / 16 * 16 ≤ (i 0).val ∧ (i 0).val < (i 0).val / 16 * 16 + 16; omega
  | ⟨1, _⟩ =>
    show win0_5.index ⟨(i 0).val / 16, ht⟩ (1 : Fin 3) * 64 ≤ (i 1).val ∧ (i 1).val < win0_5.index ⟨(i 0).val / 16, ht⟩ (1 : Fin 3) * 64 + 64
    rw [e1]; omega
  | ⟨2, _⟩ =>
    show win0_5.index ⟨(i 0).val / 16, ht⟩ (2 : Fin 3) * 1024 ≤ (i 2).val ∧ (i 2).val < win0_5.index ⟨(i 0).val / 16, ht⟩ (2 : Fin 3) * 1024 + 1024
    rw [e2]; omega

/-! ## The array after the run, and the run -/

/-- After the run the output array is the cell of the argument arrays as launched. -/
theorem final (c : Dev nD) : (dats m 0 c).arrAt 5 cfg0.N
    = cell (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- Every weakly fair execution of the kernel's program ends with the output array at the cell of the arguments and the
    arguments unchanged. -/
theorem run : θ_run defs (onTc (τ := τ) (main (F := Ideal))) ⟨m, fun _ => 0, ρ⟩ fun r => ∀ c : Dev nD,
      r.2.mem ((c : Thread nD τ).loc main_v0)
        = cell (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  A recurrent layer whose state is never updated: `out[t] = tanh (X[t] · W_x + state · W_h + b_h)` for 512 time steps, with the
  state returned as it came.

  The kernel runs 32 grid points of 16 time steps each. A point flattens its `[16, 64, 512]` block of `X` to 1024 rows,
  multiplies by `W_x`, recomputes `state · W_h + b_h` (it does not depend on the point), adds it to every time step and takes
  `tanh`. The reference contracts all of `X` with `W_x` at once, computes `state · W_h + b_h` once and repeats it over time.

  Over the extended reals both are, at time `t`, batch row `b` and hidden unit `h`,

      tanh ( ∑ₖ X(t, b, k) · W_x(k, h)  +  ( ∑ₖ state(b, k) · W_h(k, h)  +  b_h(h) ) )

  (`Cert.Rnn.cell`): the kernel's casts to the narrower float format are the identity there, its products into a zero accumulator
  are the plain sums, and its tiling only renames the time coordinate `16·t' + p`. The two sides add the three terms in the same
  grouping and sum the same products over the same index sets, so no law of the extended reals beyond the definitions is used
  and the inputs' finiteness is not needed. The second result is the argument `state` itself on both sides.

  The kernel's frame at both instances is the generated one; the reference's frame is its run with the results dropped; the
  idealization rewrote nothing.
-/
import proofs.«149903_j3590592659654_1_alg».proof.Defs
import proofs.«149903_j3590592659654_1_alg».proof.Proof.Gen.Kernel
import proofs.«149903_j3590592659654_1_alg».proof.Proof.Gen.Kernel.Skeleton
import proofs.«149903_j3590592659654_1_alg».proof.Proof.Gen.Kernel.Launch
import proofs.«149903_j3590592659654_1_alg».proof.Proof.Gen.Kernel.Points
import proofs.«149903_j3590592659654_1_alg».proof.Proof.Gen.Kernel.Frame
import proofs.«149903_j3590592659654_1_alg».proof.Proof.Gen.KernelIdeal
import proofs.«149903_j3590592659654_1_alg».proof.Proof.Gen.KernelIdeal.Skeleton
import proofs.«149903_j3590592659654_1_alg».proof.Proof.Gen.KernelIdeal.Launch
import proofs.«149903_j3590592659654_1_alg».proof.Proof.Gen.KernelIdeal.Points
import proofs.«149903_j3590592659654_1_alg».proof.Proof.Gen.KernelIdeal.Frame
import proofs.«149903_j3590592659654_1_alg».proof.Proof.Gen.ReferenceIdeal
import proofs.«149903_j3590592659654_1_alg».proof.Proof.Gen.Pre_finite_inputs
import proofs.«149903_j3590592659654_1_alg».proof.Proof.Gen.KernelIdeal.Value
import proofs.«149903_j3590592659654_1_alg».proof.Proof.Gen.ReferenceIdeal.Run
import proofs.«149903_j3590592659654_1_alg».proof.Proof.Gen.ReferenceIdeal.Read
import proofs.«149903_j3590592659654_1_alg».proof.Proof.Cell
import proofs.«149903_j3590592659654_1_alg».proof.Proof.RefCell
import proofs.«149903_j3590592659654_1_alg».proof.Proof.Whole
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the output at the cell of those arguments and with
    `state` as it came. -/
theorem algebraic : Cert.algebraic_KernelIdeal_ReferenceIdeal := by
  intro m ρ m' ρ' _ hagree
  refine ⟨fun c => Cert.Rnn.cell (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩) (Cert.KernelIdeal.Whole.run m ρ)
  · refine (θ_run Cert.ReferenceIdeal.defs _ _).mono
      (fun _ h c => ⟨(h c).1.trans ?_, (h c).2.1.trans (hagree c).2.1, (h c).2.2⟩)
      (Cert.ReferenceIdeal.Value.run (F := Ideal) m' ρ')
    rw [Cert.ReferenceIdeal.Read.val_main_v8_eq, Cert.ReferenceIdeal.RefCell.stage_eq_cell, (hagree c).1, (hagree c).2.1,
      (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
